-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1639 : Shape := ⟨2, ![512, 1639]⟩
abbrev S400000 : Shape := ⟨1, ![400000]⟩
abbrev S17000 : Shape := ⟨1, ![17000]⟩
abbrev S_ : Shape := ⟨0, ![]⟩

class Facts : Prop where
  bcast_S_S512x1639 : S_.BroadcastsInDim S512x1639 (![] : Fin 0 → Fin S512x1639.rank)
  reducesTo_S512x1639_S_d0_1 : S512x1639.ReducesTo [0, 1] S_
  h_S_ : 0 < S_.numel
  bcast_S_S400000 : S_.BroadcastsInDim S400000 (![] : Fin 0 → Fin S400000.rank)
  reducesTo_S400000_S_d0 : S400000.ReducesTo [0] S_
  bcast_S_S17000 : S_.BroadcastsInDim S17000 (![] : Fin 0 → Fin S17000.rank)
  reducesTo_S17000_S_d0 : S17000.ReducesTo [0] S_

variable [Facts]

def fn_part1 {F : FTy → Type} [FloatOps F] (main_arg3 : IVec S400000 32) (main_arg4 : IVec S400000 32) (main_v13 : IVec S_ 1) (main_v15 : IVec S400000 1) (main_c_5 : IVec S_ 32) : IVec S_ 1 :=
  let main_v16 : IVec S400000 32 := broadcastInDim S400000 ![] bcast_S_S400000 main_c_5
  let main_v17 : IVec S400000 1 := cmpi .slt main_arg3 main_v16
  let main_v18 : IVec S400000 1 := andi main_v15 main_v17
  let main_c_6 : IVec S_ 1 := constantI S_ 1 1#1
  let main_v19 : IVec S_ 1 := (fun x v => Host.reduce IntOp.andi x v reducesTo_S400000_S_d0 h_S_) main_v18 main_c_6
  let main_v20 : IVec S_ 1 := andi main_v13 main_v19
  let main_c_7 : IVec S_ 32 := constantI S_ 32 0#32
  let main_v21 : IVec S400000 32 := broadcastInDim S400000 ![] bcast_S_S400000 main_c_7
  let main_v22 : IVec S400000 1 := cmpi .sge main_arg4 main_v21
  let main_c_8 : IVec S_ 32 := constantI S_ 32 1639#32
  let main_v23 : IVec S400000 32 := broadcastInDim S400000 ![] bcast_S_S400000 main_c_8
  let main_v24 : IVec S400000 1 := cmpi .slt main_arg4 main_v23
  let main_v25 : IVec S400000 1 := andi main_v22 main_v24
  let main_c_9 : IVec S_ 1 := constantI S_ 1 1#1
  let main_v26 : IVec S_ 1 := (fun x v => Host.reduce IntOp.andi x v reducesTo_S400000_S_d0 h_S_) main_v25 main_c_9
  let main_v27 : IVec S_ 1 := andi main_v20 main_v26
  main_v27

def fn {F : FTy → Type} [FloatOps F] (main_arg0 : FVec F S512x1639 .f32) (main_arg1 : FVec F S400000 .f32) (main_arg2 : FVec F S17000 .f32) (main_arg3 : IVec S400000 32) (main_arg4 : IVec S400000 32) : IVec S_ 1 :=
  let main_v0 : FVec F S512x1639 .f32 := Host.absf main_arg0
  let main_cst : FVec F S_ .f32 := constant S_ .f32 0x7F800000#32
  let main_v1 : FVec F S512x1639 .f32 := broadcastInDim S512x1639 ![] bcast_S_S512x1639 main_cst
  let main_v2 : IVec S512x1639 1 := cmpf .olt main_v0 main_v1
  let main_c : IVec S_ 1 := constantI S_ 1 1#1
  let main_v3 : IVec S_ 1 := (fun x v => Host.reduce IntOp.andi x v reducesTo_S512x1639_S_d0_1 h_S_) main_v2 main_c
  let main_v4 : FVec F S400000 .f32 := Host.absf main_arg1
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S17000 .f32 := Host.absf main_arg2
  let main_cst_2 : FVec F S_ .f32 := constant S_ .f32 0x7F800000#32
  let main_v10 : FVec F S17000 .f32 := broadcastInDim S17000 ![] bcast_S_S17000 main_cst_2
  let main_v11 : IVec S17000 1 := cmpf .olt main_v9 main_v10
  let main_c_3 : IVec S_ 1 := constantI S_ 1 1#1
  let main_v12 : IVec S_ 1 := (fun x v => Host.reduce IntOp.andi x v reducesTo_S17000_S_d0 h_S_) main_v11 main_c_3
  let main_v13 : IVec S_ 1 := andi main_v8 main_v12
  let main_c_4 : IVec S_ 32 := constantI S_ 32 0#32
  let main_v14 : IVec S400000 32 := broadcastInDim S400000 ![] bcast_S_S400000 main_c_4
  let main_v15 : IVec S400000 1 := cmpi .sge main_arg3 main_v14
  let main_c_5 : IVec S_ 32 := constantI S_ 32 17000#32
  fn_part1 (F := F) main_arg3 main_arg4 main_v13 main_v15 main_c_5
-- ==== Kernel.lean ====
abbrev S512x1639 : Shape := ⟨2, ![512, 1639]⟩
abbrev S400000 : Shape := ⟨1, ![400000]⟩
abbrev S17000 : Shape := ⟨1, ![17000]⟩
abbrev S_ : Shape := ⟨0, ![]⟩
abbrev S1639x17000 : Shape := ⟨2, ![1639, 17000]⟩
abbrev S400000x1 : Shape := ⟨2, ![400000, 1]⟩
abbrev S400000x2 : Shape := ⟨2, ![400000, 2]⟩
abbrev S1639x18432 : Shape := ⟨2, ![1639, 18432]⟩
abbrev S18432 : Shape := ⟨1, ![18432]⟩
abbrev S1x18432 : Shape := ⟨2, ![1, 18432]⟩
abbrev S512x18432 : Shape := ⟨2, ![512, 18432]⟩
abbrev S1639x2048 : Shape := ⟨2, ![1639, 2048]⟩
abbrev S1x2048 : Shape := ⟨2, ![1, 2048]⟩
abbrev S512x2048 : Shape := ⟨2, ![512, 2048]⟩
abbrev S512x17000 : Shape := ⟨2, ![512, 17000]⟩

abbrev nBuf : Space → Nat
  | .hbm => 36
  | .vmem => 7
  | .smem => 0
  | _ => 0

abbrev bufTy : (tb : Table) → Fin (tcTables nBuf tb) → BufTy
  | .hbm, ⟨0, _⟩ => ⟨S512x1639, .f32⟩
  | .hbm, ⟨1, _⟩ => ⟨S400000, .f32⟩
  | .hbm, ⟨2, _⟩ => ⟨S17000, .f32⟩
  | .hbm, ⟨3, _⟩ => ⟨S400000, .i32⟩
  | .hbm, ⟨4, _⟩ => ⟨S400000, .i32⟩
  | .hbm, ⟨5, _⟩ => ⟨S_, .f32⟩
  | .hbm, ⟨6, _⟩ => ⟨S1639x17000, .f32⟩
  | .hbm, ⟨7, _⟩ => ⟨S_, .i32⟩
  | .hbm, ⟨8, _⟩ => ⟨S400000, .i32⟩
  | .hbm, ⟨9, _⟩ => ⟨S400000, .i1⟩
  | .hbm, ⟨10, _⟩ => ⟨S_, .i32⟩
  | .hbm, ⟨11, _⟩ => ⟨S400000, .i32⟩
  | .hbm, ⟨12, _⟩ => ⟨S400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x1, .i32⟩
  | .hbm, ⟨23, _⟩ => ⟨S400000x2, .i32⟩
  | .hbm, ⟨24, _⟩ => ⟨S1639x17000, .f32⟩
  | .hbm, ⟨25, _⟩ => ⟨S1639x17000, .bf16⟩
  | .hbm, ⟨26, _⟩ => ⟨S_, .i32⟩
  | .hbm, ⟨27, _⟩ => ⟨S_, .bf16⟩
  | .hbm, ⟨28, _⟩ => ⟨S1639x18432, .bf16⟩
  | .hbm, ⟨29, _⟩ => ⟨S_, .i32⟩
  | .hbm, ⟨30, _⟩ => ⟨S_, .f32⟩
  | .hbm, ⟨31, _⟩ => ⟨S18432, .f32⟩
  | .hbm, ⟨32, _⟩ => ⟨S1x18432, .f32⟩
  | .hbm, ⟨33, _⟩ => ⟨S512x1639, .bf16⟩
  | .hbm, ⟨34, _⟩ => ⟨S512x18432, .f32⟩
  | .hbm, ⟨35, _⟩ => ⟨S512x17000, .f32⟩
  | .local _ .vmem, ⟨0, _⟩ => ⟨S512x1639, .bf16⟩
  | .local _ .vmem, ⟨1, _⟩ => ⟨S1639x2048, .bf16⟩
  | .local _ .vmem, ⟨2, _⟩ => ⟨S1639x2048, .bf16⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S512x1639, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_c_4 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1639 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1639x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1639x17000 : S_.BroadcastsInDim S1639x17000 (![] : Fin 0 → Fin S1639x17000.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bitsLt_bf16_f32 : FTy.bits .bf16 < FTy.bits .f32
  pads_S1639x17000_S1639x18432_000_014320 : S1639x17000.Pads (![0, 0] : Fin 2 → Nat) ![0, 1432] ![0, 0] S1639x18432
  h_S_ : 0 < S_.numel
  pads_S17000_S18432_014320 : S17000.Pads (![0] : Fin 1 → Nat) ![1432] ![0] S18432
  shapeCasts_S18432_S1x18432 : S18432.ShapeCasts S1x18432
  inb_S512x1639_S512x1639_0_0 : ∀ a, (![0, 0] : Fin 2 → Nat) a + S512x1639.size a ≤ S512x1639.size a
  h_S512x1639 : 0 < S512x1639.numel
  shapeCasts_S512x1639_S512x1639 : S512x1639.ShapeCasts S512x1639
  inb_S1639x2048_S1639x2048_0_0 : ∀ a, (![0, 0] : Fin 2 → Nat) a + S1639x2048.size a ≤ S1639x2048.size a
  h_S1639x2048 : 0 < S1639x2048.numel
  shapeCasts_S1639x2048_S1639x2048 : S1639x2048.ShapeCasts S1639x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  slices_S512x18432_S512x17000_0_0 : S512x18432.Slices ![0, 0] S512x17000
  scatter_S1639x17000_S400000x2_S400000_n_01_01_1_wf : ScatterDims.WF S1639x17000 S400000x2 S400000 [] [0, 1] [0, 1] 1
  dot_S512x1639_S1639x2048_S512x2048_1_0_0_1_n_n_wf : DotDims.WF S512x1639 S1639x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1639.size a ≤ S512x1639.size a
  hwx0_0 : ∀ i : grid0.Coords, EltTy.bits .bf16 = 32 ∨ (Rect.block (s := S512x1639) S512x1639.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1639x2048.size a ≤ S1639x18432.size a
  hwx0_1 : ∀ i : grid0.Coords, EltTy.bits .bf16 = 32 ∨ (Rect.block (s := S1639x18432) S1639x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x18432.size a
  hwx0_2 : ∀ i : grid0.Coords, EltTy.bits .f32 = 32 ∨ (Rect.block (s := S1x18432) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x18432.size a
  hwx0_3 : ∀ i : grid0.Coords, EltTy.bits .f32 = 32 ∨ (Rect.block (s := S512x18432) S512x2048.size (cc0_transform_3 i) (hinb0_3 i)).WholeWords (EltTy.packing .f32)

variable [Facts₀]

def scatter_S1639x17000_S400000x2_S400000_n_01_01_1 : ScatterDims S1639x17000 S400000x2 S400000 where
  updateWindowDims := []
  insertedWindowDims := [0, 1]
  scatterDimsToOperandDims := [0, 1]
  indexVectorDim := 1
  wf := scatter_S1639x17000_S400000x2_S400000_n_01_01_1_wf
def dot_S512x1639_S1639x2048_S512x2048_1_0_0_1_n_n : DotDims S512x1639 S1639x2048 S512x2048 where
  lhsContracting := [1]
  rhsContracting := [0]
  lhsNonContracting := [0]
  rhsNonContracting := [1]
  lhsBatch := []
  rhsBatch := []
  wf := dot_S512x1639_S1639x2048_S512x2048_1_0_0_1_n_n_wf

abbrev win0_0 : Pipeline.Window sig grid0 :=
  Pipeline.Window.ofSpec (Memref.whole main_v19) S512x1639.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1639x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1639 : Shape := ⟨2, ![512, 1639]⟩
abbrev S400000 : Shape := ⟨1, ![400000]⟩
abbrev S17000 : Shape := ⟨1, ![17000]⟩
abbrev S_ : Shape := ⟨0, ![]⟩
abbrev S400000x1 : Shape := ⟨2, ![400000, 1]⟩
abbrev S512x400000 : Shape := ⟨2, ![512, 400000]⟩
abbrev S1x400000 : Shape := ⟨2, ![1, 400000]⟩
abbrev S400000x512 : Shape := ⟨2, ![400000, 512]⟩
abbrev S17000x512 : Shape := ⟨2, ![17000, 512]⟩
abbrev S512x17000 : Shape := ⟨2, ![512, 17000]⟩
abbrev S1x17000 : Shape := ⟨2, ![1, 17000]⟩

abbrev nBuf : Space → Nat
  | .hbm => 33
  | .vmem => 0
  | .smem => 0
  | _ => 0

abbrev bufTy : (tb : Table) → Fin (tcTables nBuf tb) → BufTy
  | .hbm, ⟨0, _⟩ => ⟨S512x1639, .f32⟩
  | .hbm, ⟨1, _⟩ => ⟨S400000, .f32⟩
  | .hbm, ⟨2, _⟩ => ⟨S17000, .f32⟩
  | .hbm, ⟨3, _⟩ => ⟨S400000, .i32⟩
  | .hbm, ⟨4, _⟩ => ⟨S400000, .i32⟩
  | .hbm, ⟨5, _⟩ => ⟨S_, .i32⟩
  | .hbm, ⟨6, _⟩ => ⟨S400000, .i32⟩
  | .hbm, ⟨7, _⟩ => ⟨S400000, .i1⟩
  | .hbm, ⟨8, _⟩ => ⟨S_, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S400000x1, .i32⟩
  | .hbm, ⟨13, _⟩ => ⟨S512x400000, .f32⟩
  | .hbm, ⟨14, _⟩ => ⟨S1x400000, .f32⟩
  | .hbm, ⟨15, _⟩ => ⟨S512x400000, .f32⟩
  | .hbm, ⟨16, _⟩ => ⟨S512x400000, .f32⟩
  | .hbm, ⟨17, _⟩ => ⟨S400000x512, .f32⟩
  | .hbm, ⟨18, _⟩ => ⟨S_, .f32⟩
  | .hbm, ⟨19, _⟩ => ⟨S17000x512, .f32⟩
  | .hbm, ⟨20, _⟩ => ⟨S400000x1, .i32⟩
  | .hbm, ⟨21, _⟩ => ⟨S17000x512, .f32⟩
  | .hbm, ⟨22, _⟩ => ⟨S512x17000, .f32⟩
  | .hbm, ⟨23, _⟩ => ⟨S1x17000, .f32⟩
  | .hbm, ⟨24, _⟩ => ⟨S512x17000, .f32⟩
  | .hbm, ⟨25, _⟩ => ⟨S512x17000, .f32⟩
  | .hbm, ⟨26, _⟩ => ⟨S_, .f32⟩
  | .hbm, ⟨27, _⟩ => ⟨S512x17000, .f32⟩
  | .hbm, ⟨28, _⟩ => ⟨S512x17000, .i1⟩
  | .hbm, ⟨29, _⟩ => ⟨S_, .f32⟩
  | .hbm, ⟨30, _⟩ => ⟨S512x17000, .f32⟩
  | .hbm, ⟨31, _⟩ => ⟨S512x17000, .f32⟩
  | .hbm, ⟨32, _⟩ => ⟨S512x17000, .f32⟩
  | _, _ => ⟨S512x1639, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S400000_S1x400000_1 : S400000.BroadcastsInDim S1x400000 (![1] : Fin 1 → Fin S1x400000.rank)
  bcast_S1x400000_S512x400000_0_1 : S1x400000.BroadcastsInDim S512x400000 (![0, 1] : Fin 2 → Fin S512x400000.rank)
  transposes_S512x400000_S400000x512_1_0 : S512x400000.Transposes [1, 0] S400000x512
  bcast_S_S17000x512 : S_.BroadcastsInDim S17000x512 (![] : Fin 0 → Fin S17000x512.rank)
  transposes_S17000x512_S512x17000_1_0 : S17000x512.Transposes [1, 0] S512x17000
  bcast_S17000_S1x17000_1 : S17000.BroadcastsInDim S1x17000 (![1] : Fin 1 → Fin S1x17000.rank)
  bcast_S1x17000_S512x17000_0_1 : S1x17000.BroadcastsInDim S512x17000 (![0, 1] : Fin 2 → Fin S512x17000.rank)
  bcast_S_S512x17000 : S_.BroadcastsInDim S512x17000 (![] : Fin 0 → Fin S512x17000.rank)
  gather_S512x1639_S400000x1_S512x400000_0_1_n_n_1_1_5121_wf : GatherDims.WF S512x1639 S400000x1 S512x400000 [0] [1] [] [1] [] 1 ![512, 1]
  scatter_S17000x512_S400000x1_S400000x512_1_0_0_1_wf : ScatterDims.WF S17000x512 S400000x1 S400000x512 [1] [0] [0] 1

variable [Facts₀]

def gather_S512x1639_S400000x1_S512x400000_0_1_n_n_1_1_5121 : GatherDims S512x1639 S400000x1 S512x400000 where
  offsetDims := [0]
  collapsedSliceDims := [1]
  operandBatchingDims := []
  startIndicesBatchingDims := []
  startIndexMap := [1]
  indexVectorDim := 1
  sliceSizes := ![512, 1]
  wf := gather_S512x1639_S400000x1_S512x400000_0_1_n_n_1_1_5121_wf
def scatter_S17000x512_S400000x1_S400000x512_1_0_0_1 : ScatterDims S17000x512 S400000x1 S400000x512 where
  updateWindowDims := [1]
  insertedWindowDims := [0]
  scatterDimsToOperandDims := [0]
  indexVectorDim := 1
  wf := scatter_S17000x512_S400000x1_S400000x512_1_0_0_1_wf

class Facts : Prop extends Facts₀ where

variable [Facts]
-- ==== Proof.PreDecode.lean ====
import proofs.«406403_j10926396801073_1_alg».proof.Pre_finite_inputs
import Idealize.ShloMosaic.PureOps.Ideal
import Idealize.ShloMosaic.Lib.ValueIdx
import Idealize.ShloMosaic.Lib.ReduceAll

noncomputable section

namespace Cert.PreDecode

open Idealize.ShloMosaic Idealize.ShloMosaic.ValueIdx

variable [Cert.Pre_finite_inputs.Facts]

/-- The scalar shape has one index. -/
instance subsingleton_scalar_idx : Subsingleton Cert.Pre_finite_inputs.S_.Idx :=
  ⟨fun a b => funext fun d => d.elim0⟩

/-- The f32 pattern `0x7F800000` denotes +∞. -/
theorem ofBits_inf_f32 : Ideal.ofBits .f32 0x7F800000#32 = (⊤ : EReal) := by
  simp [Ideal.ofBits, Ideal.ieee]

/-- An extended real whose absolute value `max a (-a)` is below +∞ is a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have h' : Ideal.cmp .olt (max a (-a)) (Ideal.ofBits .f32 0x7F800000#32) = 1#1 := h
  rw [ofBits_inf_f32] at h'
  induction a using EReal.rec with
  | bot => exact absurd h' (by simp [Ideal.cmp])
  | coe r => exact ⟨r, rfl⟩
  | top => exact absurd h' (by simp [Ideal.cmp])

/-- A signed word at least `0` and below `n`: the two comparisons read as integers. -/
theorem range_of_cmpi (v lo hi : BitVec 32)
    (h : IntOp.andi (IntOp.cmpi .sge v lo) (IntOp.cmpi .slt v hi) = 1#1) :
    lo.toInt ≤ v.toInt ∧ v.toInt < hi.toInt := by
  obtain ⟨h1, h2⟩ := IntOp.andi_eq_one.1 h
  exact ⟨IntOp.cmpi_sge.1 h1, IntOp.cmpi_slt.1 h2⟩

theorem pre_decode (x : FVec Ideal Cert.Pre_finite_inputs.S512x1639 .f32) (w : FVec Ideal Cert.Pre_finite_inputs.S400000 .f32)
    (bias : FVec Ideal Cert.Pre_finite_inputs.S17000 .f32) (eo ei : IVec Cert.Pre_finite_inputs.S400000 32)
    (h : Cert.Pre_finite_inputs.fn (F := Ideal) x w bias eo ei = fun _ => 1#1) :
    (∀ i, ∃ r : ℝ, x i = (r : EReal)) ∧ (∀ i, ∃ r : ℝ, w i = (r : EReal))
      ∧ (∀ e : Fin 400000, 0 ≤ (eo (ix1 e)).toInt ∧ (eo (ix1 e)).toInt < 17000)
      ∧ (∀ e : Fin 400000, 0 ≤ (ei (ix1 e)).toInt ∧ (ei (ix1 e)).toInt < 1639) := by
  have h0 := congrFun h ix0
  unfold Cert.Pre_finite_inputs.fn Cert.Pre_finite_inputs.fn_part1 at h0
  simp only [andi, IntOp.andi_eq_one] at h0
  obtain ⟨⟨⟨⟨hx, hw⟩, -⟩, heo⟩, hei⟩ := h0
  refine ⟨fun i => ?_, fun i => ?_, fun e => ?_, fun e => ?_⟩
  · exact real_of_abs_lt_inf (x i) (Host.reduce_andi_all _ _ _ _ ix0 hx i)
  · exact real_of_abs_lt_inf (w i) (Host.reduce_andi_all _ _ _ _ ix0 hw i)
  · exact range_of_cmpi (eo (ix1 e)) 0#32 17000#32 (Host.reduce_andi_all _ _ _ _ ix0 heo (ix1 e))
  · exact range_of_cmpi (ei (ix1 e)) 0#32 1639#32 (Host.reduce_andi_all _ _ _ _ ix0 hei (ix1 e))

end Cert.PreDecode

end
-- ==== Proof.Spec.lean ====
/-
  The result both programs compute, as one function of the argument arrays.

  A sparse linear layer over E = 400000 weighted edges from 1639 inputs to 17000 outputs, then a bias and a
  LeakyReLU.  Edge `e` carries weight `w e`, reads input column `ki e` and feeds output column `ko e`:

    out (b, o) = leaky ( (∑ over the edges e with ko e = o of x (b, ki e) * w e) + bias o ).

  `edgeSum` is that sum taken edge by edge.  `denseSum` is the same number computed the other way round: first
  the dense matrix W (k, o) = ∑ over the edges e with (ki e, ko e) = (k, o) of w e, then the row-by-column
  product ∑ k, x (b, k) * W (k, o).  The two agree when x and w are real (finite): the product distributes
  over the inner sum, and the double sum is regrouped by edges.
-/
import Idealize.ShloMosaic.PureOps.Ideal
import Idealize.ShloMosaic.Lib.ValueIdx

noncomputable section

namespace Cert.Spec

open Idealize.ShloMosaic Idealize.ShloMosaic.ValueIdx

/-- LeakyReLU with the slope f32(0.01) on the extended reals: `t` where `t ≥ 0`, else slope · t. -/
def leaky (t : EReal) : EReal :=
  Scalar.select (FloatOps.cmpf (F := Ideal) (φ := .f32) .oge t (Ideal.ofBits .f32 0x00000000#32)) t
    (Ideal.ofBits .f32 0x3C23D70A#32 * t)

/-- Edge by edge: the sum over the edges into output `o` of the input they read times their weight. -/
def edgeSum (x : (⟨2, ![512, 1639]⟩ : Shape).Idx → EReal) (w : (⟨1, ![400000]⟩ : Shape).Idx → EReal)
    (ki : Fin 400000 → Fin 1639) (ko : Fin 400000 → Fin 17000) (b : Fin 512) (o : Fin 17000) : EReal :=
  ∑ e : Fin 400000, if ko e = o then x (ix2 b (ki e)) * w (ix1 e) else 0

/-- Through the dense matrix: row `b` of x times column `o` of W, W (k, o) the summed weights of the edges k → o. -/
def denseSum (x : (⟨2, ![512, 1639]⟩ : Shape).Idx → EReal) (w : (⟨1, ![400000]⟩ : Shape).Idx → EReal)
    (ki : Fin 400000 → Fin 1639) (ko : Fin 400000 → Fin 17000) (b : Fin 512) (o : Fin 17000) : EReal :=
  ∑ k : Fin 1639, x (ix2 b k) * ∑ e : Fin 400000, if ki e = k ∧ ko e = o then w (ix1 e) else 0

/-- The layer's output. -/
def G (x : (⟨2, ![512, 1639]⟩ : Shape).Idx → EReal) (w : (⟨1, ![400000]⟩ : Shape).Idx → EReal)
    (bias : (⟨1, ![17000]⟩ : Shape).Idx → EReal) (ki : Fin 400000 → Fin 1639) (ko : Fin 400000 → Fin 17000) :
    (⟨2, ![512, 17000]⟩ : Shape).Idx → EReal :=
  fun j => leaky (edgeSum x w ki ko (j 0) (j 1) + bias (ix1 (j 1)))

end Cert.Spec

end
-- ==== Proof.LibGather2.lean ====
/-
  `stablehlo.gather` of a rank-2 operand along ONE of its axes at a column [P, 1] of start indices, read at an index:
  what `x[idx]` (rows of an [N, C] table; `gather_rows_apply`) and `jnp.take(x, idx, axis=1)` (columns of a [C, N]
  table; `gather_cols_apply`) lower to.  The gathered axis is collapsed and start-indexed, the other axis is the one
  offset axis with a whole slice, the index vector sits on axis 1 of the start indices, nothing is batched.  The
  result element reads the operand at the start index read as a SIGNED integer and clamped into [0, N − 1], as
  StableHLO's gather clamps every start index.
-/
import Idealize.ShloMosaic.PureOps
import Idealize.ShloMosaic.Lib.ValueIdx

noncomputable section

namespace Cert.LibGather2

open Idealize.ShloMosaic Idealize.ShloMosaic.ValueIdx

variable {α : Type}

/-- Rows of an [N, C] table at a column of start indices: result (p, c) is the table at (clamp idx[p, 0], c). -/
theorem gather_rows_apply {N C P w : Nat} (hN : 0 < N)
    (d : GatherDims ⟨2, ![N, C]⟩ ⟨2, ![P, 1]⟩ ⟨2, ![P, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ w) (p : Fin P) (c : Fin C) :
    Host.gather d x idx (ix2 p c)
      = x (ix2 (⟨min (idx (ix2 p (0 : Fin 1))).toInt.toNat (N - 1), by omega⟩ : Fin N) c) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the gathered axis: collapsed (so not kept: offset coordinate 0), start-indexed, slice size 1
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 p c : (⟨2, ![P, C]⟩ : Shape).Idx) X).val = p.val := fun X hX => by
        have hX1 : X ∉ d.offsetDims := by
          have := (List.mem_filter.1 hX).2
          simpa using this
        rw [hoff] at hX1
        match X with
        | ⟨0, _⟩ => rfl
        | ⟨1, _⟩ => exact absurd (List.mem_singleton.mpr rfl) hX1
      exact e _ (List.getElem_mem _)
    | ⟨1, _⟩ =>
      -- axis 1 is the index vector's: the component of the start index for the gathered axis is component 0
      unfold GatherDims.siIdx
      rw [dif_pos (by rw [hivd])]
      apply Fin.ext
      show List.idxOf (0 : Fin 2) d.startIndexMap = 0
      rw [hsim]; simp
  | ⟨1, _⟩ =>
    -- the offset axis: kept, not start-indexed (start 0), its coordinate the result's on the one offset axis
    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hb 1), Nat.add_zero]
    unfold GatherDims.start GatherDims.offCoord
    rw [dif_neg hm, dif_pos hk, Nat.zero_add]
    have e : ∀ X : Fin 2, X ∈ d.offsetDims → ((ix2 p c : (⟨2, ![P, C]⟩ : Shape).Idx) X).val = c.val := fun X hX => by
      rw [hoff] at hX
      obtain rfl := List.mem_singleton.1 hX
      rfl
    exact e _ (List.getElem_mem _)

/-- Columns of a [C, N] table at a column of start indices: result (c, p) is the table at (c, clamp idx[p, 0]). -/
theorem gather_cols_apply {N C P w : Nat} (hN : 0 < N)
    (d : GatherDims ⟨2, ![C, N]⟩ ⟨2, ![P, 1]⟩ ⟨2, ![C, P]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![C, 1])
    (x : (⟨2, ![C, N]⟩ : Shape).Idx → α) (idx : IVec ⟨2, ![P, 1]⟩ w) (c : Fin C) (p : Fin P) :
    Host.gather d x idx (ix2 c p)
      = x (ix2 c (⟨min (idx (ix2 p (0 : Fin 1))).toInt.toNat (N - 1), by omega⟩ : Fin N)) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the offset axis: kept, not start-indexed (start 0), its coordinate the result's on the one offset axis
    have hk : (0 : Fin 2) ∈ d.sKept := by rw [GatherDims.mem_sKept, hcoll, hob]; simp
    have hm : (0 : Fin 2) ∉ d.startIndexMap := by rw [hsim]; simp
    show d.start (ix2 c p) idx 0 + d.batchCoord (ix2 c p) 0 + d.offCoord (ix2 c p) 0 = c.val
    rw [GatherDims.batchCoord_eq_zero _ _ _ (hb 0), Nat.add_zero]
    unfold GatherDims.start GatherDims.offCoord
    rw [dif_neg hm, dif_pos hk, Nat.zero_add]
    have e : ∀ X : Fin 2, X ∈ d.offsetDims → ((ix2 c p : (⟨2, ![C, P]⟩ : Shape).Idx) X).val = c.val := fun X hX => by
      rw [hoff] at hX
      obtain rfl := List.mem_singleton.1 hX
      rfl
    exact e _ (List.getElem_mem _)
  | ⟨1, _⟩ =>
    -- the gathered axis: collapsed (so not kept: offset coordinate 0), start-indexed, slice size 1
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c p) idx 1 + d.batchCoord (ix2 c p) 1 + d.offCoord (ix2 c p) 1 = min _ (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 c p : (⟨2, ![C, P]⟩ : Shape).Idx) X).val = p.val := fun X hX => by
        have hX1 : X ∉ d.offsetDims := by
          have := (List.mem_filter.1 hX).2
          simpa using this
        rw [hoff] at hX1
        match X with
        | ⟨0, _⟩ => exact absurd (List.mem_singleton.mpr rfl) hX1
        | ⟨1, _⟩ => rfl
      exact e _ (List.getElem_mem _)
    | ⟨1, _⟩ =>
      -- axis 1 is the index vector's: the component of the start index for the gathered axis is component 0
      unfold GatherDims.siIdx
      rw [dif_pos (by rw [hivd])]
      apply Fin.ext
      show List.idxOf (1 : Fin 2) d.startIndexMap = 0
      rw [hsim]; simp

end Cert.LibGather2

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScatterHost.lean ====
import Idealize.ShloMosaic.PureOps.Ideal
import Idealize.ShloMosaic.PureOps.Contract
import Idealize.ShloMosaic.Lib.ValueIdx
import proofs.«406403_j10926396801073_1_alg».proof.Proof.LibScatterRows

/-!
# The host's scatter-add of rows in a program's spelling, read at an index

A program states `out = operand.at[idx].add(updates)` as `Host.scatterAdd` at its dimension numbers. At the ideal
values, for the dimension numbers of a row scatter, the result at `(r, c)` is the operand's entry plus the sum, over
the update rows `n` whose start row is `r`, of `updates (n, c)`. Stated over variable arrays: a use site names its own
arrays as arguments.
-/

noncomputable section

namespace Idealize.ShloMosaic.ScatterRows

open Idealize.ShloMosaic Idealize.ShloMosaic.ValueIdx

variable {R C N : Nat}

/-- THE PROGRAM'S ROW SCATTER-ADD AT AN INDEX. -/
theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.RefValue.lean ====
import proofs.«406403_j10926396801073_1_alg».proof.Proof.Gen.ReferenceIdeal.Read
import proofs.«406403_j10926396801073_1_alg».proof.Proof.Spec
import proofs.«406403_j10926396801073_1_alg».proof.Proof.LibGather2
import proofs.«406403_j10926396801073_1_alg».proof.Proof.LibScatterHost
import Idealize.ShloMosaic.PureOps.Ideal
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen

/-- A nonnegative index is not wrapped: the select on "index < 0" keeps it. -/
theorem wrap_elem (v : BitVec 32) (h : 0 ≤ v.toInt) :
    Scalar.select (IntOp.cmpi .slt v 0#32) (IntOp.addi v 1639#32) v = v := by
  have hs : v.slt 0#32 = false := by
    unfold BitVec.slt
    rw [decide_eq_false_iff_not, BitVec.toInt_zero]
    omega
  unfold Scalar.select IntOp.cmpi
  show (if BitVec.ofBool (v.slt 0#32) = 1 then _ else v) = v
  rw [hs]
  exact if_neg (by decide)

/-- The wrapped edge-in index at edge `e` is the index itself. -/
theorem v4_eq (ei : IVec S400000 32) (ki : Fin 400000 → Fin 1639)
    (hki : ∀ e, (ei (ix1 e)).toInt = ((ki e).val : Int)) (e : Fin 400000) :
    Cert.ReferenceIdeal.Read.val_main_v4 (F := Ideal) ei (ix1 e) = ei (ix1 e) := by
  rw [Read.val_main_v4_apply, Read.val_main_v1_apply, Read.val_main_v3_apply, Read.val_main_v0_apply,
    Read.val_main_v2_apply, Read.val_main_c_apply, Read.val_main_c_0_apply]
  exact wrap_elem _ (by rw [hki e]; exact Int.natCast_nonneg _)

/-- The column of start indices at (e, 0) is the edge-in index of `e`. -/
theorem v5_eq (ei : IVec S400000 32) (ki : Fin 400000 → Fin 1639)
    (hki : ∀ e, (ei (ix1 e)).toInt = ((ki e).val : Int)) (e : Fin 400000) :
    Cert.ReferenceIdeal.Read.val_main_v5 (F := Ideal) ei (ix2 e (0 : Fin 1)) = ei (ix1 e) := by
  rw [Read.val_main_v5_apply]
  have hi : Read.idx_main_v5 (ix2 e (0 : Fin 1)) = ix1 e := by
    funext a; match a with | ⟨0, _⟩ => rfl
  rw [hi]
  exact v4_eq ei ki hki e

/-- The gathered column: entry (b, e) of the gather is x at (b, ki e). -/
theorem v6_eq (x : FVec Ideal S512x1639 .f32) (ei : IVec S400000 32) (ki : Fin 400000 → Fin 1639)
    (hki : ∀ e, (ei (ix1 e)).toInt = ((ki e).val : Int)) (b : Fin 512) (e : Fin 400000) :
    Cert.ReferenceIdeal.Read.val_main_v6 (F := Ideal) x ei (ix2 b e) = x (ix2 b (ki e)) := by
  unfold Read.val_main_v6
  rw [Cert.LibGather2.gather_cols_apply (N := 1639) (C := 512) (P := 400000) (by decide)
    gather_S512x1639_S400000x1_S512x400000_0_1_n_n_1_1_5121 rfl rfl rfl rfl rfl rfl rfl x
    (Read.val_main_v5 (F := Ideal) ei) b e]
  congr 2
  apply Fin.ext
  show min (Read.val_main_v5 (F := Ideal) ei (ix2 e (0 : Fin 1))).toInt.toNat (1639 - 1) = (ki e).val
  rw [v5_eq ei ki hki e, hki e]
  have := (ki e).isLt
  omega

/-- The broadcast weights: entry (b, e) is w at e. -/
theorem v8_eq (w : FVec Ideal S400000 .f32) (b : Fin 512) (e : Fin 400000) :
    Cert.ReferenceIdeal.Read.val_main_v8 (F := Ideal) w (ix2 b e) = w (ix1 e) := by
  rw [Read.val_main_v8_apply, Read.val_main_v7_apply]
  congr 1
  funext a; match a with | ⟨0, _⟩ => rfl

/-- The update rows: entry (e, b) is x (b, ki e) * w e. -/
theorem v10_eq (x : FVec Ideal S512x1639 .f32) (w : FVec Ideal S400000 .f32) (ei : IVec S400000 32)
    (ki : Fin 400000 → Fin 1639) (hki : ∀ e, (ei (ix1 e)).toInt = ((ki e).val : Int))
    (e : Fin 400000) (b : Fin 512) :
    Cert.ReferenceIdeal.Read.val_main_v10 (F := Ideal) x w ei (ix2 e b) = x (ix2 b (ki e)) * w (ix1 e) := by
  rw [Read.val_main_v10_apply]
  have hi : Read.idx_main_v10 (ix2 e b) = ix2 b e := by
    funext a; match a with | ⟨0, _⟩ => rfl | ⟨1, _⟩ => rfl
  rw [hi, Read.val_main_v9_apply, v6_eq x ei ki hki b e, v8_eq w b e]
  rfl

/-- The scattered sums: entry (o, b) of the scatter-add into zeros is the edge sum for output o and row b. -/
theorem v13_eq (x : FVec Ideal S512x1639 .f32) (w : FVec Ideal S400000 .f32) (eo ei : IVec S400000 32)
    (ki : Fin 400000 → Fin 1639) (ko : Fin 400000 → Fin 17000)
    (hki : ∀ e, (ei (ix1 e)).toInt = ((ki e).val : Int)) (hko : ∀ e, (eo (ix1 e)).toInt = ((ko e).val : Int))
    (o : Fin 17000) (b : Fin 512) :
    Cert.ReferenceIdeal.Read.val_main_v13 (F := Ideal) x w eo ei (ix2 o b) = Cert.Spec.edgeSum x w ki ko b o := by
  unfold Read.val_main_v13
  refine (Idealize.ShloMosaic.ScatterRows.host_scatterAdd_apply (R := 17000) (C := 512) (N := 400000)
    scatter_S17000x512_S400000x1_S400000x512_1_0_0_1_wf (Read.val_main_v11 (F := Ideal))
    (Read.val_main_v12 (F := Ideal) eo) (Read.val_main_v10 (F := Ideal) x w ei) o b).trans ?_
  rw [Read.val_main_v11_apply, Read.val_main_cst_apply, Ideal.ofBits_def, Ideal.ofBits_zero_f32, zero_add]
  unfold Cert.Spec.edgeSum
  refine Finset.sum_congr rfl fun e _ => ?_
  rw [Read.val_main_v12_apply, v10_eq x w ei ki hki e b]
  have hi : Read.idx_main_v12 (ix2 e (0 : Fin 1)) = ix1 e := by
    funext a; match a with | ⟨0, _⟩ => rfl
  rw [hi, hko e]
  by_cases h : ko e = o
  · rw [if_pos h, if_pos (by rw [h])]
  · rw [if_neg h, if_neg (fun hc => h (Fin.ext (by omega)))]

/-- The pre-activation: entry (b, o) is the edge sum plus the bias of o. -/
theorem v17_eq (x : FVec Ideal S512x1639 .f32) (w : FVec Ideal S400000 .f32) (bias : FVec Ideal S17000 .f32)
    (eo ei : IVec S400000 32) (ki : Fin 400000 → Fin 1639) (ko : Fin 400000 → Fin 17000)
    (hki : ∀ e, (ei (ix1 e)).toInt = ((ki e).val : Int)) (hko : ∀ e, (eo (ix1 e)).toInt = ((ko e).val : Int))
    (b : Fin 512) (o : Fin 17000) :
    Cert.ReferenceIdeal.Read.val_main_v17 (F := Ideal) x w bias eo ei (ix2 b o)
      = Cert.Spec.edgeSum x w ki ko b o + bias (ix1 o) := by
  rw [Read.val_main_v17_apply, Read.val_main_v14_apply, Read.val_main_v16_apply, Read.val_main_v15_apply]
  have h14 : Read.idx_main_v14 (ix2 b o) = ix2 o b := by
    funext a; match a with | ⟨0, _⟩ => rfl | ⟨1, _⟩ => rfl
  have h15 : Read.idx_main_v15 (Read.idx_main_v16 (ix2 b o)) = ix1 o := by
    funext a; match a with | ⟨0, _⟩ => rfl
  rw [h14, h15, v13_eq x w eo ei ki ko hki hko o b]
  rfl

theorem ref_eq_G (x : FVec Ideal S512x1639 .f32) (w : FVec Ideal S400000 .f32) (bias : FVec Ideal S17000 .f32)
    (eo ei : IVec S400000 32) (ki : Fin 400000 → Fin 1639) (ko : Fin 400000 → Fin 17000)
    (hki : ∀ e, (ei (ix1 e)).toInt = ((ki e).val : Int)) (hko : ∀ e, (eo (ix1 e)).toInt = ((ko e).val : Int)) :
    Cert.ReferenceIdeal.Read.val_main_v22 (F := Ideal) x w bias eo ei = Cert.Spec.G x w bias ki ko := by
  funext j
  obtain ⟨b, o, rfl⟩ : ∃ (b : Fin 512) (o : Fin 17000), j = ix2 b o := ⟨j 0, j 1, eq_ix2 j⟩
  rw [Read.val_main_v22_apply, Read.val_main_v19_apply, Read.val_main_v21_apply, Read.val_main_v18_apply,
    Read.val_main_v20_apply, Read.val_main_cst_1_apply, Read.val_main_cst_2_apply,
    v17_eq x w bias eo ei ki ko hki hko b o]
  rfl

end Cert.ReferenceIdeal.RefValue

end
-- ==== Proof.LibScatterCells.lean ====
import Idealize.ShloMosaic.PureOps.Ideal
import Idealize.ShloMosaic.Lib.ValueIdx

/-!
# A host scatter-add of single cells, read at an index

`out = operand.at[rows, cols].add(updates)` with `operand : [R, C]`, one pair of start coordinates per update
(`idx : [N, 2]`, both read signed: component 0 the row, component 1 the column) and `updates : [N]`: update `n` is
added into the operand's cell `(idx (n, 0), idx (n, 1))` when that cell exists and is dropped otherwise. Both operand
axes are inserted window axes, so an update has no window: it lands on exactly one cell. At the ideal instance the
result at `(r, c)` is the operand's entry plus the sum of the updates whose pair is `(r, c)`.
-/

noncomputable section

namespace Idealize.ShloMosaic.ScatterCells

open Idealize.ShloMosaic Idealize.ShloMosaic.ValueIdx

variable {R C N : Nat}

/-- The dimension numbers of a cell scatter: the updates have no window axis, both operand axes are inserted, and
    the two index components address operand axes 0 and 1 in that order. -/
abbrev dimsC (wf : ScatterDims.WF (⟨2, ![R, C]⟩ : Shape) ⟨2, ![N, 2]⟩ ⟨1, ![N]⟩ [] [0, 1] [0, 1] 1) :
    ScatterDims (⟨2, ![R, C]⟩ : Shape) ⟨2, ![N, 2]⟩ ⟨1, ![N]⟩ where
  updateWindowDims := []
  insertedWindowDims := [0, 1]
  scatterDimsToOperandDims := [0, 1]
  indexVectorDim := 1
  wf := wf

variable (wf : ScatterDims.WF (⟨2, ![R, C]⟩ : Shape) ⟨2, ![N, 2]⟩ ⟨1, ![N]⟩ [] [0, 1] [0, 1] 1)

/-- On operand axis 0 the window of update `n` starts at the pair's first component, read signed. -/
theorem start0 {w : Nat} (n : Fin N) (idx : IVec ⟨2, ![N, 2]⟩ w) :
    (dimsC wf).start (ix1 n) idx 0 = (idx (ix2 n 0)).toInt := by
  unfold ScatterDims.start
  rw [dif_pos (show (0 : Fin 2) ∈ [(0 : Fin 2), 1] by decide)]
  refine congrArg (fun k => (idx k).toInt) (funext fun b => Fin.ext ?_)
  match b with
  | ⟨0, _⟩ => rfl
  | ⟨1, _⟩ => rfl

/-- On operand axis 1 the window of update `n` starts at the pair's second component, read signed. -/
theorem start1 {w : Nat} (n : Fin N) (idx : IVec ⟨2, ![N, 2]⟩ w) :
    (dimsC wf).start (ix1 n) idx 1 = (idx (ix2 n 1)).toInt := by
  unfold ScatterDims.start
  rw [dif_pos (show (1 : Fin 2) ∈ [(0 : Fin 2), 1] by decide)]
  refine congrArg (fun k => (idx k).toInt) (funext fun b => Fin.ext ?_)
  match b with
  | ⟨0, _⟩ => rfl
  | ⟨1, _⟩ => rfl

/-- Neither operand axis is kept, so the window coordinate is `0` on both. -/
theorem window_zero (n : Fin N) (a : Fin 2) : (dimsC wf).window (ix1 n) a = 0 := by
  have h : ¬ (a : Fin (⟨2, ![R, C]⟩ : Shape).rank) ∈ (dimsC wf).sKept :=
    (show ¬ a ∈ (List.finRange 2).filter (· ∉ [(0 : Fin 2), 1]) by revert a; decide)
  unfold ScatterDims.window
  exact dif_neg h

/-- Update `n` lands on operand entry `(r, c)` exactly when its pair of start coordinates, read signed, is `(r, c)`;
    a pair outside the operand lands nowhere. -/
theorem resultIdx_iff {w : Nat} (n : Fin N) (idx : IVec ⟨2, ![N, 2]⟩ w) (r : Fin R) (c : Fin C) :
    (dimsC wf).resultIdx? (ix1 n) idx = some (ix2 r c)
      ↔ (idx (ix2 n 0)).toInt = (r.val : Int) ∧ (idx (ix2 n 1)).toInt = (c.val : Int) := by
  have hs0 := start0 wf n idx
  have hs1 := start1 wf n idx
  have hw0 := window_zero wf n 0
  have hw1 := window_zero wf n 1
  have hr := r.isLt
  have hc := c.isLt
  unfold ScatterDims.resultIdx?
  split
  · rename_i h
    rw [Option.some.injEq]
    constructor
    · intro e
      have e0 : ((dimsC wf).start (ix1 n) idx 0 + ((dimsC wf).window (ix1 n) 0 : Nat)).toNat = r.val :=
        congrArg (fun f : (⟨2, ![R, C]⟩ : Shape).Idx => (f 0).val) e
      have e1 : ((dimsC wf).start (ix1 n) idx 1 + ((dimsC wf).window (ix1 n) 1 : Nat)).toNat = c.val :=
        congrArg (fun f : (⟨2, ![R, C]⟩ : Shape).Idx => (f 1).val) e
      have h0 := (h 0).1
      have h1 := (h 1).1
      rw [hs0, hw0] at e0 h0
      rw [hs1, hw1] at e1 h1
      exact ⟨by omega, by omega⟩
    · rintro ⟨e0, e1⟩
      funext a
      apply Fin.ext
      match a with
      | ⟨0, _⟩ =>
        show ((dimsC wf).start (ix1 n) idx 0 + ((dimsC wf).window (ix1 n) 0 : Nat)).toNat = r.val
        rw [hs0, hw0, e0]; omega
      | ⟨1, _⟩ =>
        show ((dimsC wf).start (ix1 n) idx 1 + ((dimsC wf).window (ix1 n) 1 : Nat)).toNat = c.val
        rw [hs1, hw1, e1]; omega
  · rename_i h
    constructor
    · intro e; cases e
    · rintro ⟨e0, e1⟩
      refine absurd (fun a => ?_) h
      match a with
      | ⟨0, _⟩ =>
        show (0 : Int) ≤ (dimsC wf).start (ix1 n) idx 0 + ((dimsC wf).window (ix1 n) 0 : Nat)
          ∧ (dimsC wf).start (ix1 n) idx 0 + ((dimsC wf).window (ix1 n) 0 : Nat) < (R : Nat)
        rw [hs0, hw0, e0]; omega
      | ⟨1, _⟩ =>
        show (0 : Int) ≤ (dimsC wf).start (ix1 n) idx 1 + ((dimsC wf).window (ix1 n) 1 : Nat)
          ∧ (dimsC wf).start (ix1 n) idx 1 + ((dimsC wf).window (ix1 n) 1 : Nat) < (C : Nat)
        rw [hs1, hw1, e1]; omega

/-- A sum over a rank-1 index set is the sum over its coordinate range. -/
theorem sum_ix1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    fun i => congrArg f (eq_ix1 i)

/-- THE CELL SCATTER-ADD AT AN INDEX: the operand's entry plus the sum of the updates whose pair of start
    coordinates is `(r, c)`. -/
theorem scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Ideal.hostScatterAdd (dimsC wf) x idx upd (ix2 r c)
      = x (ix2 r c) + ∑ n : Fin N,
          if (idx (ix2 n 0)).toInt = (r.val : Int) ∧ (idx (ix2 n 1)).toInt = (c.val : Int) then upd (ix1 n) else 0 := by
  unfold Ideal.hostScatterAdd
  refine congrArg (x (ix2 r c) + ·) ?_
  rw [Finset.sum_filter, sum_ix1]
  refine Finset.sum_congr rfl fun n _ => ?_
  simp only [resultIdx_iff wf]

end Idealize.ShloMosaic.ScatterCells

end
-- ==== Proof.KHost.lean ====
/-
  The three arrays the region stages, as the host lines before it leave them, read at an index.

  The left operand is the input array itself (a change of float format is the identity on the extended reals).
  The right operand is the dense weight matrix W (k, o) = the summed weights of the edges k → o, built by a
  scatter-add of single cells into zeros and padded with zero columns up to 18432; on the first 17000 columns the
  padding is not seen.  The bias row is the bias padded the same way and reshaped to one row.
-/
import proofs.«406403_j10926396801073_1_alg».proof.Proof.Gen.KernelIdeal.Frame
import proofs.«406403_j10926396801073_1_alg».proof.Proof.LibScatterCells
import Idealize.ShloMosaic.Lib.Pipeline.Value
import Idealize.ShloMosaic.Lib.KernelVsHost
import Idealize.ShloMosaic.Lib.ValueIdx
import Idealize.ShloMosaic.Lib.StableHlo.Run
import Idealize.ShloMosaic.PureOps.Contract
import Idealize.ShloMosaic.PureOps.Ideal.Laws

noncomputable section

namespace Cert.KernelIdeal.KHost

open Idealize.ShloMosaic Idealize.ShloMosaic.TcCoe Idealize.ShloMosaic.ValueIdx Cert.KernelIdeal Cert.KernelIdeal.Gen

/-- A vector padded behind and reshaped to one row, read at a column of the original extent, is the vector there. -/
theorem pad_row_apply {α : Type} (x : S17000.Idx → α) (v : S_.Idx → α)
    (hp : S17000.Pads (![0] : Fin 1 → Nat) ![1432] ![0] S18432) (hu : 0 < S_.numel)
    (hc : S18432.ShapeCasts S1x18432) (o : Fin 17000) :
    shapeCast S1x18432 (pad S18432 ![0] ![1432] ![0] x v hp hu) hc (ix2 (0 : Fin 1) (⟨o.val, by omega⟩ : Fin 18432))
      = x (ix1 o) := by
  refine (shapeCast_apply _ hc _ (ix1 (⟨o.val, by omega⟩ : Fin 18432)) ?_).trans ?_
  · rw [Shape.rowMajor_val_one, Shape.rowMajor_val_two]
    show o.val = 0 * 18432 + o.val
    omega
  · refine pad_apply_of_inside _ _ _ x v hp hu _ (ix1 o) fun a => ?_
    match a with
    | ⟨0, _⟩ => show o.val = 0 + o.val * (0 + 1); omega

/-- A nonnegative index is not wrapped: the select on "index < 0" keeps it, whatever would have been added. -/
theorem wrap_elem (n v : BitVec 32) (h : 0 ≤ v.toInt) :
    Scalar.select (IntOp.cmpi .slt v 0#32) (IntOp.addi v n) v = v := by
  have hs : v.slt 0#32 = false := by
    unfold BitVec.slt
    rw [decide_eq_false_iff_not, BitVec.toInt_zero]
    omega
  unfold Scalar.select IntOp.cmpi
  show (if BitVec.ofBool (v.slt 0#32) = 1 then _ else v) = v
  rw [hs]
  exact if_neg (by decide)

/-- The wrapped index vector is the index vector itself when every index is nonnegative. -/
theorem wrap_vec (n : BitVec 32) (ei : IVec S400000 32)
    (hb : S_.BroadcastsInDim S400000 (![] : Fin 0 → Fin S400000.rank))
    (h : ∀ e, 0 ≤ (ei (ix1 e)).toInt) :
    select (cmpi .slt ei (broadcastInDim S400000 ![] hb (constantI S_ 32 0#32)))
      (addi ei (broadcastInDim S400000 ![] hb (constantI S_ 32 n))) ei = ei := by
  funext i
  obtain ⟨e, rfl⟩ : ∃ e : Fin 400000, i = ix1 e := ⟨i 0, eq_ix1 i⟩
  exact wrap_elem n _ (h e)

/-- Component 0 of the index pair of edge e is the first vector's entry e. -/
theorem pair_fst (a b : IVec S400000 32)
    (hb : S400000.BroadcastsInDim S400000x1 (![0] : Fin 1 → Fin S400000x1.rank))
    (hc : Shape.Concatenates [S400000x1, S400000x1] S400000x2 1) (e : Fin 400000) :
    concatenate S400000x2 1 [⟨S400000x1, broadcastInDim S400000x1 ![0] hb a⟩,
      ⟨S400000x1, broadcastInDim S400000x1 ![0] hb b⟩] hc (ix2 e (0 : Fin 2)) = a (ix1 e) := by
  refine (concatenate_pair_apply_left (t := S400000x2) (s₁ := S400000x1) (s₂ := S400000x1) (1 : Fin 2) _ _ hc _ rfl
    (ix2 e (0 : Fin 1)) ?_).trans ?_
  · intro d
    match d with
    | ⟨0, _⟩ => rfl
    | ⟨1, _⟩ => rfl
  · refine broadcastInDim_apply _ hb a _ (ix1 e) fun d => ?_
    match d with
    | ⟨0, _⟩ => rfl

/-- Component 1 of the index pair of edge e is the second vector's entry e. -/
theorem pair_snd (a b : IVec S400000 32)
    (hb : S400000.BroadcastsInDim S400000x1 (![0] : Fin 1 → Fin S400000x1.rank))
    (hc : Shape.Concatenates [S400000x1, S400000x1] S400000x2 1) (e : Fin 400000) :
    concatenate S400000x2 1 [⟨S400000x1, broadcastInDim S400000x1 ![0] hb a⟩,
      ⟨S400000x1, broadcastInDim S400000x1 ![0] hb b⟩] hc (ix2 e (1 : Fin 2)) = b (ix1 e) := by
  refine (concatenate_pair_apply_right (t := S400000x2) (s₁ := S400000x1) (s₂ := S400000x1) (1 : Fin 2) _ _ hc _ rfl rfl
    (ix2 e (0 : Fin 1)) ?_ rfl).trans ?_
  · intro d hd
    match d, hd with
    | ⟨0, _⟩, _ => rfl
    | ⟨1, _⟩, hd => exact absurd rfl hd
  · refine broadcastInDim_apply _ hb b _ (ix1 e) fun d => ?_
    match d with
    | ⟨0, _⟩ => rfl

/-- The cell scatter-add in a program's spelling, read at an index: the operand's entry plus the summed updates
    whose pair of coordinates is that index. -/
theorem host_cells_apply {R C N : Nat}
    (wf : ScatterDims.WF (⟨2, ![R, C]⟩ : Shape) ⟨2, ![N, 2]⟩ ⟨1, ![N]⟩ [] [0, 1] [0, 1] 1) {w : Nat}
    (z : (⟨2, ![R, C]⟩ : Shape).Idx → EReal) (idx : IVec ⟨2, ![N, 2]⟩ w) (upd : (⟨1, ![N]⟩ : Shape).Idx → EReal)
    (r : Fin R) (c : Fin C) :
    Host.scatterAdd (F := Ideal) (φ := .f32) (ScatterCells.dimsC wf) z idx upd (ix2 r c)
      = z (ix2 r c) + ∑ n : Fin N,
          if (idx (ix2 n 0)).toInt = (r.val : Int) ∧ (idx (ix2 n 1)).toInt = (c.val : Int) then upd (ix1 n) else 0 :=
  ScatterCells.scatterAdd_apply wf z idx upd r c

/-- The dense weight matrix before the zero columns are padded behind it, as the host lines build it, over any
    arrays: the index vectors wrapped, paired up, the weights scatter-added cell by cell into zeros, the float
    format changed. -/
def wpre (ei eo : IVec S400000 32) (wv : FVec Ideal S400000 .f32) : FVec Ideal S1639x17000 .bf16 :=
  truncf .bf16 (Host.scatterAdd (F := Ideal) (φ := .f32) scatter_S1639x17000_S400000x2_S400000_n_01_01_1
    (broadcastInDim S1639x17000 ![] Facts₀.bcast_S_S1639x17000 (constant (F := Ideal) S_ .f32 0x00000000#32))
    (concatenate S400000x2 1
      [⟨S400000x1, broadcastInDim S400000x1 ![0] Facts₀.bcast_S400000_S400000x1_0
          (select (cmpi .slt ei (broadcastInDim S400000 ![] Facts₀.bcast_S_S400000 (constantI S_ 32 0#32)))
            (addi ei (broadcastInDim S400000 ![] Facts₀.bcast_S_S400000 (constantI S_ 32 1639#32))) ei)⟩,
       ⟨S400000x1, broadcastInDim S400000x1 ![0] Facts₀.bcast_S400000_S400000x1_0
          (select (cmpi .slt eo (broadcastInDim S400000 ![] Facts₀.bcast_S_S400000 (constantI S_ 32 0#32)))
            (addi eo (broadcastInDim S400000 ![] Facts₀.bcast_S_S400000 (constantI S_ 32 17000#32))) eo)⟩]
      Facts₀.concatenates_S400000x1_S400000x1_S400000x2_d1)
    wv) Facts₀.bitsLt_bf16_f32

/-- The record the program scatters with is the cell scatter's dimension numbers. -/
theorem scatter_eq_dimsC : scatter_S1639x17000_S400000x2_S400000_n_01_01_1
    = ScatterCells.dimsC Facts₀.scatter_S1639x17000_S400000x2_S400000_n_01_01_1_wf := rfl

/-- That matrix at (k, o): the change of float format is the identity, the scatter-add into zeros leaves the summed
    updates of the pairs equal to (k, o), and pair e is (edge_in e, edge_out e) because nonnegative indices are not
    wrapped. -/
theorem wpre_apply (ei eo : IVec S400000 32) (wv : FVec Ideal S400000 .f32)
    (ki : Fin 400000 → Fin 1639) (ko : Fin 400000 → Fin 17000)
    (hki : ∀ e, (ei (ix1 e)).toInt = ((ki e).val : Int)) (hko : ∀ e, (eo (ix1 e)).toInt = ((ko e).val : Int))
    (k : Fin 1639) (o : Fin 17000) :
    wpre ei eo wv (ix2 k o) = ∑ e : Fin 400000, (if ki e = k ∧ ko e = o then wv (ix1 e) else 0 : EReal) := by
  unfold wpre
  rw [wrap_vec 1639#32 ei Facts₀.bcast_S_S400000 (fun e => by rw [hki e]; exact Int.natCast_nonneg _),
    wrap_vec 17000#32 eo Facts₀.bcast_S_S400000 (fun e => by rw [hko e]; exact Int.natCast_nonneg _),
    truncf_apply, scatter_eq_dimsC, host_cells_apply]
  have hz : broadcastInDim S1639x17000 ![] Facts₀.bcast_S_S1639x17000
      (constant (F := Ideal) S_ .f32 0x00000000#32) (ix2 k o) = 0 := Ideal.ofBits_zero_f32
  rw [hz, zero_add]
  refine Finset.sum_congr rfl fun e _ => ?_
  rw [pair_fst _ _ Facts₀.bcast_S400000_S400000x1_0 Facts₀.concatenates_S400000x1_S400000x1_S400000x2_d1 e,
    pair_snd _ _ Facts₀.bcast_S400000_S400000x1_0 Facts₀.concatenates_S400000x1_S400000x1_S400000x2_d1 e,
    hki e, hko e]
  by_cases h : ki e = k ∧ ko e = o
  · rw [if_pos h, if_pos ⟨by rw [h.1], by rw [h.2]⟩]
  · rw [if_neg h, if_neg fun hh => h ⟨Fin.ext (by have := hh.1; omega), Fin.ext (by have := hh.2; omega)⟩]

/-- The padded matrix at (k, o), o below 17000, is the matrix before the pad there, whatever the arrays hold: the
    host lines after the scatter only pad zero columns behind it. -/
theorem v16_of_v15 (W : Valuation τ sig (Elt Ideal)) (k : Fin 1639) (o : Fin 17000) :
    (StableHlo.after (hostOps0_1 ++ (hostOps0_2 ++ (hostOps0_3 ++ (hostOps0_4 ++ [])))) W (Proc.devRef .tc main_v16)
        : S1639x18432.Idx → EReal) (ix2 k (⟨o.val, by omega⟩ : Fin 18432))
      = (W (Proc.devRef .tc main_v15) : S1639x17000.Idx → EReal) (ix2 k o) := by
  simp only [hostOps0_1, hostOps0_2, hostOps0_3, hostOps0_4, List.append_nil, List.cons_append, List.nil_append]
  after_results
  refine pad_apply_of_inside _ _ _ _ _ Facts₀.pads_S1639x17000_S1639x18432_000_014320 Facts₀.h_S_ _ (ix2 k o)
    fun a => ?_
  match a with
  | ⟨0, _⟩ => show k.val = 0 + k.val * (0 + 1); omega
  | ⟨1, _⟩ => show o.val = 0 + o.val * (0 + 1); omega

variable (m : (ℓ : Loc nD τ sig) → Buf (Elt Ideal) ℓ)

/-- The left operand as the region finds it is the input array. -/
theorem x_entry (c : Dev nD) :
    (V m c main_v19 : S512x1639.Idx → EReal) = (m ((c : Thread nD τ).loc main_arg0) : S512x1639.Idx → EReal) := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The matrix before the pad, as the first stretch of host lines leaves it, is that matrix over the input arrays. -/
theorem v15_eq (c : Dev nD) :
    (StableHlo.after hostOps0 (fun b => m (c, b)) (Proc.devRef .tc main_v15) : S1639x17000.Idx → EReal)
      = wpre (m (c, Proc.devRef .tc main_arg4)) (m (c, Proc.devRef .tc main_arg3)) (m (c, Proc.devRef .tc main_arg1)) := by
  simp only [hostOps0]
  after_results
  rfl

/-- The right operand at (k, o), o below 17000: the summed weights of the edges from k to o. -/
theorem w_entry (c : Dev nD) (ki : Fin 400000 → Fin 1639) (ko : Fin 400000 → Fin 17000)
    (hki : ∀ e, ((m ((c : Thread nD τ).loc main_arg4) : IVec S400000 32) (ix1 e)).toInt = ((ki e).val : Int))
    (hko : ∀ e, ((m ((c : Thread nD τ).loc main_arg3) : IVec S400000 32) (ix1 e)).toInt = ((ko e).val : Int))
    (k : Fin 1639) (o : Fin 17000) :
    (V m c main_v16 : S1639x18432.Idx → EReal) (ix2 k (⟨o.val, by omega⟩ : Fin 18432))
      = ∑ e : Fin 400000, (if ki e = k ∧ ko e = o
          then (m ((c : Thread nD τ).loc main_arg1) : S400000.Idx → EReal) (ix1 e) else 0 : EReal) := by
  have hsplit : V0 m c = StableHlo.after (hostOps0_1 ++ (hostOps0_2 ++ (hostOps0_3 ++ (hostOps0_4 ++ []))))
      (StableHlo.after hostOps0 (fun b => m (c, b))) := by
    dsimp only [V0]
    simp only [List.flatten_cons, List.flatten_nil]
    exact StableHlo.after_append _ _ _
  dsimp only [V]
  rw [hsplit]
  refine (v16_of_v15 _ k o).trans ?_
  rw [v15_eq m c]
  exact wpre_apply _ _ _ ki ko hki hko k o

/-- The bias row at (0, o), o below 17000: the bias of o. -/
theorem b_entry (c : Dev nD) (o : Fin 17000) :
    (V m c main_v18 : S1x18432.Idx → EReal) (ix2 (0 : Fin 1) (⟨o.val, by omega⟩ : Fin 18432))
      = (m ((c : Thread nD τ).loc main_arg2) : S17000.Idx → EReal) (ix1 o) := by
  dsimp only [V, V0]
  simp only [hostOps0, hostOps0_1, hostOps0_2, hostOps0_3, hostOps0_4, List.flatten_cons, List.flatten_nil,
    List.append_nil, List.cons_append, List.nil_append]
  after_results
  exact pad_row_apply _ _ Facts₀.pads_S17000_S18432_014320 Facts₀.h_S_ Facts₀.shapeCasts_S18432_S1x18432 o

end Cert.KernelIdeal.KHost

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.KPayload.lean ====
/-
  The kernel body's stored value at one index.

  At a grid point the body loads the whole [512, 1639] input block, the [1639, 2048] block of the dense weight
  matrix and the [1, 2048] block of the bias row, and stores into the [512, 2048] output block
  `leaky (x · W + bias)`.  At the ideal values the matrix product into the zero accumulator is the plain sum over
  the contracted axis, and the bias row is read at column `q` whatever the row `p`.
-/
import proofs.«406403_j10926396801073_1_alg».proof.Proof.Gen.KernelIdeal.Skeleton
import proofs.«406403_j10926396801073_1_alg».proof.Proof.Spec
import proofs.«406403_j10926396801073_1_alg».proof.Proof.LibPlainMatmul
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Cert.KernelIdeal Cert.KernelIdeal.Gen

/-- The body's dimension numbers are the plain ones: contract axis 1 of the left operand with axis 0 of the right. -/
theorem dot_eq : dot_S512x1639_S1639x2048_S512x2048_1_0_0_1_n_n = DotDims.plain 512 1639 2048 := rfl

/-- The pre-activation at (p, q): row p of the left block times column q of the right block, plus the bias row's
    entry q. -/
theorem pre_apply (x0 : FVec Ideal S512x1639 .bf16) (x1 : FVec Ideal S1639x2048 .bf16) (x2 : FVec Ideal S1x2048 .f32)
    (p : Fin 512) (q : Fin 2048) :
    (addf (matmul dot_S512x1639_S1639x2048_S512x2048_1_0_0_1_n_n none
            (shapeCast S512x1639 x0 shapeCasts_S512x1639_S512x1639)
            (shapeCast S1639x2048 x1 shapeCasts_S1639x2048_S1639x2048) (constant S512x2048 .f32 0x00000000#32))
          (broadcastTo S512x2048 (shapeCast S1x2048 x2 shapeCasts_S1x2048_S1x2048) broadcasts_S1x2048_S512x2048)
        : FVec Ideal S512x2048 .f32) (ix2 p q)
      = (∑ k : Fin 1639, x0 (ix2 p k) * x1 (ix2 k q)) + x2 (ix2 0 q) := by
  rw [shapeCast_self, shapeCast_self, shapeCast_self, dot_eq]
  refine congrArg₂ (· + ·) (Cert.Lib.matmul_plain_zero_apply 512 1639 2048 none x0 x1 (ix2 p q))
    (broadcastTo_apply x2 broadcasts_S1x2048_S512x2048 (ix2 p q) (ix2 0 q) fun a => ?_)
  match a with
  | ⟨0, _⟩ => show (0 : Nat) = if (1 : Nat) = 1 then 0 else _; rw [if_pos rfl]
  | ⟨1, _⟩ => show q.val = if (2048 : Nat) = 1 then 0 else q.val; rw [if_neg (by decide)]

/-- The body's stored value at (p, q) is the activation of that pre-activation. -/
theorem pay_apply (x0 : FVec Ideal S512x1639 .bf16) (x1 : FVec Ideal S1639x2048 .bf16) (x2 : FVec Ideal S1x2048 .f32)
    (p : Fin 512) (q : Fin 2048) :
    k0_pay1 (F := Ideal) x0 x1 x2 (ix2 p q)
      = Cert.Spec.leaky ((∑ k : Fin 1639, x0 (ix2 p k) * x1 (ix2 k q)) + x2 (ix2 0 q)) := by
  unfold k0_pay1
  rw [← pre_apply x0 x1 x2 p q]
  rfl

end Cert.KernelIdeal.KValue

end
-- ==== Proof.KValue.lean ====
/-
  The kernel program's result as one function of the three arrays its region stages.

  The region's grid has nine points; point t stores into columns [2048 t, 2048 t + 2048) of the padded
  [512, 18432] output the activation of (row of the left operand) · (column of the right operand) + (bias row).
  The left operand's block is the whole array at every point; the right operand's and the bias row's blocks move
  with the output's block.  So every block is the restriction of one whole-array function, the nine blocks tile the
  padded output, and the host line after the region keeps its first 17000 columns.
-/
import proofs.«406403_j10926396801073_1_alg».proof.Proof.Gen.KernelIdeal.Frame
import proofs.«406403_j10926396801073_1_alg».proof.Proof.KPayload
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The left operand, the dense weight matrix and the bias row as the region finds them. -/
abbrev xarr (c : Dev nD) : S512x1639.Idx → EReal := V m c main_v19
abbrev warr (c : Dev nD) : S1639x18432.Idx → EReal := V m c main_v16
abbrev barr (c : Dev nD) : S1x18432.Idx → EReal := V m c main_v18

/-- The padded output: at (b, o) the activation of row b of X times column o of W plus the bias row at o. -/
def full (X : S512x1639.Idx → EReal) (W : S1639x18432.Idx → EReal) (Bv : S1x18432.Idx → EReal) :
    S512x18432.Idx → EReal :=
  fun j => Cert.Spec.leaky ((∑ k : Fin 1639, X (ix2 (j 0) k) * W (ix2 k (j 1))) + Bv (ix2 0 (j 1)))

/-- The body's stored value at block coordinates j is the padded output at array coordinates i, when the three
    loaded blocks read the three arrays at the matching places. -/
theorem block_value (X : S512x1639.Idx → EReal) (W : S1639x18432.Idx → EReal) (Bv : S1x18432.Idx → EReal)
    (x0 : FVec Ideal S512x1639 .bf16) (x1 : FVec Ideal S1639x2048 .bf16) (x2 : FVec Ideal S1x2048 .f32)
    (i : S512x18432.Idx) (j : S512x2048.Idx)
    (h0 : ∀ k : Fin 1639, x0 (ix2 (j 0) k) = X (ix2 (i 0) k))
    (h1 : ∀ k : Fin 1639, x1 (ix2 k (j 1)) = W (ix2 k (i 1)))
    (h2 : x2 (ix2 0 (j 1)) = Bv (ix2 0 (i 1))) :
    k0_pay1 (F := Ideal) x0 x1 x2 j = full X W Bv i := by
  obtain ⟨p, q, rfl⟩ : ∃ (p : Fin 512) (q : Fin 2048), j = ix2 p q := ⟨j 0, j 1, eq_ix2 j⟩
  refine (pay_apply x0 x1 x2 p q).trans ?_
  unfold full
  exact congrArg Cert.Spec.leaky (congrArg₂ (· + ·)
    (Finset.sum_congr rfl fun k _ => congrArg₂ (· * ·) (h0 k) (h1 k)) h2)

theorem hz : (![0, 0] : Fin 2 → Nat) = fun _ => 0 := funext fun a => by fin_cases a <;> rfl

/-- The block indices over the grid: the left operand's block never moves, the right operand's and the bias row's
    column block is the output's, and the output's column block at point t is t. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What the body leaves in the output's buffer at point t, read through the output's block, is block t of the
    padded output — for any three blocks that read three arrays X, W, Bv through the input windows' blocks at t. -/
theorem cut_out_eq (t : Fin cfg0.N) (X : S512x1639.Idx → EReal) (W : S1639x18432.Idx → EReal)
    (Bv : S1x18432.Idx → EReal)
    (x0 : FVec Ideal S512x1639 .bf16) (x1 : FVec Ideal S1639x2048 .bf16) (x2 : FVec Ideal S1x2048 .f32)
    (h0 : ∀ y : S512x1639.Idx, x0 y = X (((cfg0.win 0).blk t).view.emb y))
    (h1 : ∀ y : S1639x2048.Idx, x1 y = W (((cfg0.win 1).blk t).view.emb y))
    (h2 : ∀ y : S1x2048.Idx, x2 y = Bv (((cfg0.win 2).blk t).view.emb y)) :
    (cfg0.win 3).cut (grid0.coords t) (out0_3 x0 x1 x2)
      = ((cfg0.win 3).blk t).view.read (Elt Ideal) (full X W Bv) := by
  unfold out0_3
  rw [View.canon_unit_zero hz]
  simp only [View.ld_unit_zero (S := S512x1639) hz, View.ld_unit_zero (S := S1639x2048) hz,
    View.ld_unit_zero (S := S1x2048) hz]
  obtain ⟨e00, e01, e10, e11, e20, e21, e30, e31⟩ := idx_facts t
  funext j
  show k0_pay1 (F := Ideal) x0 x1 x2 j = full _ _ _ (((cfg0.win 3).blk t).view.emb j)
  refine block_value _ _ _ x0 x1 x2 _ j (fun k => ?_) (fun k => ?_) ?_
  · rw [h0]
    refine congrArg X (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 1639 + 1 * k.val = k.val
      omega
  · rw [h1]
    refine congrArg W (funext fun a => Fin.ext ?_)
    match a with
    | ⟨0, _⟩ =>
      show win0_1.index t (0 : Fin 2) * 1639 + 1 * k.val = k.val
      omega
    | ⟨1, _⟩ =>
      show win0_1.index t (1 : Fin 2) * 2048 + 1 * (j 1).val = win0_3.index t (1 : Fin 2) * 2048 + 1 * (j 1).val
      omega
  · rw [h2]
    refine congrArg Bv (funext fun a => Fin.ext ?_)
    match a with
    | ⟨0, _⟩ =>
      show win0_2.index t (0 : Fin 2) * 1 + 1 * 0 = 0
      omega
    | ⟨1, _⟩ =>
      show win0_2.index t (1 : Fin 2) * 2048 + 1 * (j 1).val = win0_3.index t (1 : Fin 2) * 2048 + 1 * (j 1).val
      omega

/-- What point t writes back is block t of the padded output of the three staged arrays. -/
theorem flushed_eq (c : Dev nD) (t : Fin cfg0.N) :
    (dats m 0 c).flushed 3 t
      = ((cfg0.win 3).blk t).view.read (Elt Ideal) (full (xarr m c) (warr m c) (barr m c)) := by
  show (cfg0.win 3).cut (grid0.coords t) ((dats m 0 c).after 3 t) = _
  rw [after0_3]
  exact cut_out_eq t (xarr m c) (warr m c) (barr m c) (iblk m c 0 t) (iblk m c 1 t) (iblk m c 2 t)
    (fun _ => rfl) (fun _ => rfl) (fun _ => rfl)

/-- An index of the padded output is in point t's block iff each coordinate is in the block's range. -/
theorem mem_blk (t : Fin cfg0.N) (i : S512x18432.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v20).slice (win0_3.rect t)).set ↔ _
  rw [View.set_slice_whole, Rect.mem_set_unit]
  exact Iff.rfl

/-- The nine blocks tile the padded output: column o lies in the block of point o / 2048. -/
theorem cover (i : S512x18432.Idx) :
    ∃ t : Fin cfg0.N, (cfg0.win 3).flush t = true ∧ i ∈ ((cfg0.win 3).blk t).view.set := by
  have hi0 : (i 0).val < 512 := (i 0).isLt
  have hi1 : (i 1).val < 18432 := (i 1).isLt
  have h9 : grid0.N = 9 := N_0
  have ht : (i 1).val / 2048 < grid0.N := by omega
  obtain ⟨-, -, -, -, -, -, e30, e31⟩ := idx_facts ⟨(i 1).val / 2048, ht⟩
  refine ⟨⟨(i 1).val / 2048, ht⟩, flush0_3 _, ?_⟩
  rw [mem_blk]
  intro a
  match a with
  | ⟨0, _⟩ =>
    show win0_3.index ⟨(i 1).val / 2048, ht⟩ (0 : Fin 2) * 512 ≤ (i 0).val
      ∧ (i 0).val < win0_3.index ⟨(i 1).val / 2048, ht⟩ (0 : Fin 2) * 512 + 512
    omega
  | ⟨1, _⟩ =>
    show win0_3.index ⟨(i 1).val / 2048, ht⟩ (1 : Fin 2) * 2048 ≤ (i 1).val
      ∧ (i 1).val < win0_3.index ⟨(i 1).val / 2048, ht⟩ (1 : Fin 2) * 2048 + 2048
    have e : win0_3.index ⟨(i 1).val / 2048, ht⟩ (1 : Fin 2) = (i 1).val / 2048 := e31
    omega

/-- The padded output array after the run. -/
theorem final (c : Dev nD) : (dats m 0 c).arrAt 3 cfg0.N = full (xarr m c) (warr m c) (barr m c) :=
  (dats m 0 c).arrAt_eq_of_cover 3 (full (xarr m c) (warr m c) (barr m c)) (fun t _ => flushed_eq m c t) cover

/-- The program's result: the host line after the region keeps the first 17000 columns. -/
theorem tail (c : Dev nD) :
    (Pipeline.afterTail₀ cfgs (dats m) 0 (V0 m) [hostOps1] c main_v21 : S512x17000.Idx → EReal)
      = extractStridedSlice S512x17000 ![0, 0] (full (xarr m c) (warr m c) (barr m c))
          slices_S512x18432_S512x17000_0_0 := by
  unfold Pipeline.afterTail₀
  show StableHlo.after hostOps1 _ (Proc.devRef .tc main_v21) = _
  after_results
  exact congrArg (fun v => extractStridedSlice S512x17000 ![0, 0] v slices_S512x18432_S512x17000_0_0)
    ((Pipeline.withArrays_arr spec0 launch0.win.arr_inj c (V0 m c)
      (fun w => (dats m 0 c).arrAt w cfg0.N) 3).trans (final m c))

/-- The program's run: every weakly fair execution terminates with the result array at the first 17000 columns of
    the padded output and the five arguments unchanged. -/
theorem run : θ_run defs (onTc (τ := τ) (main (F := Ideal))) ⟨m, fun _ => 0, ρ⟩ (fun r => ∀ c : Dev nD,
      r.2.mem ((c.tc : Thread nD τ).loc main_v21)
        = extractStridedSlice S512x17000 ![0, 0] (full (xarr m c) (warr m c) (barr m c))
            slices_S512x18432_S512x17000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v21 (Pipeline.mem_restRefs_of main_v21 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.Algebra.lean ====
import proofs.«406403_j10926396801073_1_alg».proof.Proof.Spec
import Mathlib.Data.EReal.Basic
import Mathlib.Algebra.BigOperators.Ring.Finset
import Mathlib.Algebra.BigOperators.Group.Finset.Sigma
import Mathlib.Algebra.BigOperators.Group.Finset.Piecewise

noncomputable section

namespace Cert.Spec

open Idealize.ShloMosaic Idealize.ShloMosaic.ValueIdx

/-- Over the reals, on abstract finite index types: the row-by-column product through the summed weights
    equals the sum over the selected edges.  The product distributes over the inner sum, the two sums are
    swapped, and for a fixed edge `e` the sum over `k` has the single non-zero term `k = ki e`. -/
theorem dense_eq_edge_real {E K : Type} [Fintype E] [Fintype K] [DecidableEq K]
    (P : E → Prop) [DecidablePred P] (xr : K → ℝ) (wr : E → ℝ) (ki : E → K) :
    (∑ k : K, xr k * ∑ e : E, if ki e = k ∧ P e then wr e else 0)
      = ∑ e : E, if P e then xr (ki e) * wr e else 0 := by
  simp_rw [Finset.mul_sum]
  rw [Finset.sum_comm]
  refine Finset.sum_congr rfl (fun e _ => ?_)
  by_cases h : P e
  · simp only [h, and_true, if_true, mul_ite, mul_zero]
    rw [Finset.sum_ite_eq]
    simp only [Finset.mem_univ, if_true]
  · simp only [h, and_false, if_false, mul_zero, Finset.sum_const_zero]

/-- The coercion ℝ → EReal commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- The coercion ℝ → EReal commutes with an if-then-else whose other branch is zero. -/
theorem coe_ite_zero (c : Prop) [Decidable c] (a : ℝ) :
    ((if c then a else 0 : ℝ) : EReal) = if c then (a : EReal) else 0 := by
  split_ifs <;> rfl

theorem dense_eq_edge (x : (⟨2, ![512, 1639]⟩ : Shape).Idx → EReal) (w : (⟨1, ![400000]⟩ : Shape).Idx → EReal)
    (ki : Fin 400000 → Fin 1639) (ko : Fin 400000 → Fin 17000)
    (hx : ∀ i, ∃ r : ℝ, x i = (r : EReal)) (hw : ∀ i, ∃ r : ℝ, w i = (r : EReal)) (b : Fin 512) (o : Fin 17000) :
    denseSum x w ki ko b o = edgeSum x w ki ko b o := by
  choose xr hxr using hx
  choose wr hwr using hw
  have h := dense_eq_edge_real (fun e : Fin 400000 => ko e = o)
    (fun k : Fin 1639 => xr (ix2 b k)) (fun e : Fin 400000 => wr (ix1 e)) ki
  have h' := congrArg (fun r : ℝ => (r : EReal)) h
  simp only [coe_finsum, EReal.coe_mul, coe_ite_zero] at h'
  unfold denseSum edgeSum
  simp only [hxr, hwr]
  exact h'

end Cert.Spec

end
-- ==== Proof.Join.lean ====
/-
  The kernel program's result is the layer's output.

  The padded output, cut to its first 17000 columns, is at (b, o) the activation of
  ∑ k, x (b, k) * W (k, o) + bias o with W (k, o) the summed weights of the edges k → o: the row-by-column product
  through the dense matrix.  For real inputs that product is the sum taken edge by edge, which is what the layer's
  output is defined by.
-/
import proofs.«406403_j10926396801073_1_alg».proof.Proof.KValue
import proofs.«406403_j10926396801073_1_alg».proof.Proof.Algebra
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Cert.KernelIdeal Cert.KernelIdeal.Gen

/-- Integers all in [0, n) are the values of a function into Fin n. -/
theorem exists_index {ι : Type} (g : ι → Int) (n : Nat) (h : ∀ e : ι, 0 ≤ g e ∧ g e < (n : Int)) :
    ∃ f : ι → Fin n, ∀ e, g e = ((f e).val : Int) :=
  ⟨fun e => ⟨(g e).toNat, by have := h e; omega⟩, fun e => (Int.toNat_of_nonneg (h e).1).symm⟩

/-- The first 17000 columns of the padded output are the layer's output, when the left operand is the input array,
    the right operand holds the summed edge weights on those columns and the bias row holds the bias there. -/
theorem slice_full_eq_G (X : S512x1639.Idx → EReal) (W : S1639x18432.Idx → EReal) (Bv : S1x18432.Idx → EReal)
    (x : S512x1639.Idx → EReal) (w : S400000.Idx → EReal) (bias : S17000.Idx → EReal)
    (ki : Fin 400000 → Fin 1639) (ko : Fin 400000 → Fin 17000)
    (hx : ∀ i, ∃ r : ℝ, x i = (r : EReal)) (hw : ∀ i, ∃ r : ℝ, w i = (r : EReal))
    (hX : X = x)
    (hW : ∀ (k : Fin 1639) (o : Fin 17000), W (ix2 k (⟨o.val, by omega⟩ : Fin 18432))
        = ∑ e : Fin 400000, (if ki e = k ∧ ko e = o then w (ix1 e) else 0 : EReal))
    (hB : ∀ o : Fin 17000, Bv (ix2 (0 : Fin 1) (⟨o.val, by omega⟩ : Fin 18432)) = bias (ix1 o)) :
    extractStridedSlice S512x17000 ![0, 0] (full X W Bv) slices_S512x18432_S512x17000_0_0
      = Cert.Spec.G x w bias ki ko := by
  subst hX
  funext j
  obtain ⟨b, o, rfl⟩ : ∃ (b : Fin 512) (o : Fin 17000), j = ix2 b o := ⟨j 0, j 1, eq_ix2 j⟩
  refine (extractStridedSlice_apply _ _ _ (ix2 b o) (ix2 b (⟨o.val, by omega⟩ : Fin 18432)) fun a => ?_).trans ?_
  · match a with
    | ⟨0, _⟩ => show b.val = 0 + b.val; omega
    | ⟨1, _⟩ => show o.val = 0 + o.val; omega
  · unfold full Cert.Spec.G
    show Cert.Spec.leaky ((∑ k : Fin 1639, X (ix2 b k) * W (ix2 k (⟨o.val, by omega⟩ : Fin 18432)))
          + Bv (ix2 (0 : Fin 1) (⟨o.val, by omega⟩ : Fin 18432)))
      = Cert.Spec.leaky (Cert.Spec.edgeSum X w ki ko b o + bias (ix1 o))
    rw [hB o, ← Cert.Spec.dense_eq_edge X w ki ko hx hw b o]
    unfold Cert.Spec.denseSum
    simp only [hW]

end Cert.KernelIdeal.KValue

end
-- ==== Proof.lean ====
/-
  A sparse linear layer with a LeakyReLU, computed two ways.

  The reference gathers the input columns the edges read, scales them by the edge weights and sums them per output
  column (a scatter-add of rows), then adds the bias and applies the activation.  The kernel first builds the dense
  matrix W (k, o) = the summed weights of the edges k → o (a scatter-add of single cells into zeros), pads it and the
  bias to 18432 columns, multiplies the input by W block of columns by block of columns on a grid of nine points with
  the bias and the activation fused, and keeps the first 17000 columns.

  Under the precondition (finite float inputs; every edge's output index in [0, 17000) and input index in
  [0, 1639)) both are  out (b, o) = leaky ((∑ over the edges e into o of x (b, ki e) * w e) + bias o):  for real x
  and w the row-by-column product through the summed weights is the sum taken edge by edge (the product distributes
  over the inner sum and the double sum is regrouped by edges).  The two float-format changes of the kernel are the
  identity on the extended reals, and the zero columns of the padding are cut off again.
-/
import proofs.«406403_j10926396801073_1_alg».proof.Defs
import proofs.«406403_j10926396801073_1_alg».proof.Proof.Gen.Kernel
import proofs.«406403_j10926396801073_1_alg».proof.Proof.Gen.Kernel.Skeleton
import proofs.«406403_j10926396801073_1_alg».proof.Proof.Gen.Kernel.Launch
import proofs.«406403_j10926396801073_1_alg».proof.Proof.Gen.Kernel.Points
import proofs.«406403_j10926396801073_1_alg».proof.Proof.Gen.Kernel.Frame
import proofs.«406403_j10926396801073_1_alg».proof.Proof.Gen.KernelIdeal
import proofs.«406403_j10926396801073_1_alg».proof.Proof.Gen.KernelIdeal.Skeleton
import proofs.«406403_j10926396801073_1_alg».proof.Proof.Gen.KernelIdeal.Launch
import proofs.«406403_j10926396801073_1_alg».proof.Proof.Gen.KernelIdeal.Points
import proofs.«406403_j10926396801073_1_alg».proof.Proof.Gen.KernelIdeal.Frame
import proofs.«406403_j10926396801073_1_alg».proof.Proof.Gen.ReferenceIdeal
import proofs.«406403_j10926396801073_1_alg».proof.Proof.Gen.Pre_finite_inputs
import proofs.«406403_j10926396801073_1_alg».proof.Proof.Gen.ReferenceIdeal.Run
import proofs.«406403_j10926396801073_1_alg».proof.Proof.Gen.ReferenceIdeal.Read
import proofs.«406403_j10926396801073_1_alg».proof.Proof.PreDecode
import proofs.«406403_j10926396801073_1_alg».proof.Proof.RefValue
import proofs.«406403_j10926396801073_1_alg».proof.Proof.KHost
import proofs.«406403_j10926396801073_1_alg».proof.Proof.KValue
import proofs.«406403_j10926396801073_1_alg».proof.Proof.Join
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs end with the layer's output of the arguments: the kernel program by its run, the three staged
    arrays read at an index and the regrouping of the double sum; the reference by its run read stage by stage. -/
theorem algebraic : Cert.algebraic_KernelIdeal_ReferenceIdeal := by
  intro m ρ m' ρ' hpre hagree
  refine ⟨fun c => Cert.ReferenceIdeal.Read.val_main_v22 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.KValue.run m ρ)
    obtain ⟨hx, hw, heo, hei⟩ := Cert.PreDecode.pre_decode _ _ _ _ _ (hpre c)
    obtain ⟨ki, hki⟩ := Cert.KernelIdeal.KValue.exists_index _ 1639 hei
    obtain ⟨ko, hko⟩ := Cert.KernelIdeal.KValue.exists_index _ 17000 heo
    show _ = Cert.ReferenceIdeal.Read.val_main_v22 (F := Ideal) _ _ _ _ _
    rw [Cert.ReferenceIdeal.RefValue.ref_eq_G _ _ _ _ _ ki ko hki hko]
    exact Cert.KernelIdeal.KValue.slice_full_eq_G (Cert.KernelIdeal.KValue.xarr m c) (Cert.KernelIdeal.KValue.warr m c)
      (Cert.KernelIdeal.KValue.barr m c) _ _ _ ki ko hx hw (Cert.KernelIdeal.KHost.x_entry m c)
      (Cert.KernelIdeal.KHost.w_entry m c ki ko hki hko) (Cert.KernelIdeal.KHost.b_entry m c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v22_eq _ _ _ _ _

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
